-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x256 .f32) (main_arg1 : FVec F S4096x4096 .f32) (main_arg2 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Kernel.lean ====
abbrev S4096x256 : Shape := ⟨2, ![4096, 256]⟩
abbrev S4096x4096 : Shape := ⟨2, ![4096, 4096]⟩
abbrev S512x4096 : Shape := ⟨2, ![512, 4096]⟩
abbrev S2048x256 : Shape := ⟨2, ![2048, 256]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x256, .f32⟩
  | .hbm, ⟨3, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S2048x256, .f32⟩
  | .local _ .vmem, ⟨4, _⟩ => ⟨S2048x256, .f32⟩
  | .local _ .vmem, ⟨5, _⟩ => ⟨S512x256, .f32⟩
  | .local _ .vmem, ⟨6, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c4_i32 : BitVec 32 := 4#32
  let c0_i32 : BitVec 32 := 0#32
  let v5 : BitVec 1 := Scalar.cmpi .eq c4_i32 c0_i32
  let c1_i32 : BitVec 32 := 1#32
  let v6 : BitVec 32 := Scalar.select v5 c1_i32 c4_i32
  let v7 : BitVec 32 := Scalar.remsi arg0 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c512_i32 : BitVec 32 := 512#32
  let v15 : BitVec 32 := Scalar.muli v14 c512_i32
  let v16 : Index := Scalar.indexCast v15
  let c0_7 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  inb_S4096x256_S4096x256_0_0 : ∀ a, (![0, 0] : Fin 2 → Nat) a + S4096x256.size a ≤ S4096x256.size a
  h_S4096x256 : 0 < S4096x256.numel
  h_S512x256 : 0 < S512x256.numel
  inb_S512x256_S512x256_0_0 : ∀ a, (![0, 0] : Fin 2 → Nat) a + S512x256.size a ≤ S512x256.size a
  dot_S512x4096_S4096x256_S512x256_1_0_0_1_n_n_wf : DotDims.WF S512x4096 S4096x256 S512x256 [1] [0] [0] [1] [] []
  hrank0 : 0 < grid0.rank
  k0_off1_inb : ∀ i : grid0.Coords, ∀ a, (k0_off1 i) a + S512x256.size a ≤ S2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S4096x256.size a
  hwx0_2 : ∀ i : grid0.Coords, EltTy.bits .f32 = 32 ∨ (Rect.block (s := S4096x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .f32 = 32 ∨ (Rect.block (s := S4096x256) S512x256.size (cc0_transform_3 i) (hinb0_3 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096x256, .f32⟩
  | .hbm, ⟨6, _⟩ => ⟨S4096x256, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  dot_S4096x4096_S4096x256_S4096x256_1_0_0_1_n_n_wf : DotDims.WF S4096x4096 S4096x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.Propagation.lean ====
/-
  One propagation step, as a function of its three arrays at the ideal values.

  For features `x`, `h` of 4096 rows and 256 columns and a dense 4096 × 4096 matrix `adj`, the step is
      out(p, q) = w₁ · Σₖ adj(p, k) · x(k, q) + w₂ · h(p, q),
  with the two weights the binary32 numbers nearest to 9/10 and 1/10. Both are kept as their bit patterns: the same
  two words stand on both sides of the comparison, so their values are never needed. The sum is over the whole
  contraction axis at once; over the extended reals it has no order.
-/
import Idealize.ShloMosaic.PureOps.Ideal
import Idealize.ShloMosaic.Lib.ValueIdx

noncomputable section

namespace Cert.Propagation

open Idealize.ShloMosaic Idealize.ShloMosaic.ValueIdx

/-- The shape of the feature arrays `x`, `h` and of the result. -/
abbrev Feat : Shape := ⟨2, ![4096, 256]⟩
/-- The shape of the dense matrix. -/
abbrev Mat : Shape := ⟨2, ![4096, 4096]⟩

/-- The weight of the product term: the binary32 number nearest 9/10. -/
abbrev wProd : EReal := Ideal.ofBits .f32 0x3F666666#32
/-- The weight of the carried term: the binary32 number nearest 1/10. -/
abbrev wKeep : EReal := Ideal.ofBits .f32 0x3DCCCCCD#32

/-- Entry (p, q) of the step: the weighted row-by-column product plus the weighted entry of `h`. -/
def stepAt (x : Feat.Idx → EReal) (adj : Mat.Idx → EReal) (h : Feat.Idx → EReal) (p : Fin 4096) (q : Fin 256) : EReal :=
  wProd * (∑ k : Fin 4096, adj (ix2 p k) * x (ix2 k q)) + wKeep * h (ix2 p q)

/-- The step as an array: its entry at an index is `stepAt` at the index's two coordinates. -/
def step (x : Feat.Idx → EReal) (adj : Mat.Idx → EReal) (h : Feat.Idx → EReal) : Feat.Idx → EReal :=
  fun i => stepAt x adj h (i 0) (i 1)

/-- The step at an index whose coordinates are known. -/
theorem step_apply (x : Feat.Idx → EReal) (adj : Mat.Idx → EReal) (h : Feat.Idx → EReal) (i : Feat.Idx)
    (p : Fin 4096) (q : Fin 256) (hp : (i 0).val = p.val) (hq : (i 1).val = q.val) :
    step x adj h i = stepAt x adj h p q := by
  obtain rfl : (i 0 : Fin 4096) = p := Fin.ext hp
  obtain rfl : (i 1 : Fin 256) = q := Fin.ext hq
  rfl

end Cert.Propagation

end
-- ==== Proof.ReferenceValue.lean ====
/-
  The reference computes the propagation step.

  Its program is a matrix product of `adj` and `x` over the whole contraction axis, scaled by the first weight, plus
  `h` scaled by the second. Read at an index (p, q), the product is Σₖ adj(p, k) · x(k, q), the two broadcast
  constants are the weights' words, and the sum of the two scaled terms is `stepAt` at (p, q).
-/
import proofs.«123390_g1228360646954_cont_fleet_178_24_alg».proof.Proof.Gen.ReferenceIdeal.Read
import proofs.«123390_g1228360646954_cont_fleet_178_24_alg».proof.Proof.Propagation

noncomputable section

namespace Cert.ReferenceIdeal.StepValue

open Cert.ReferenceIdeal Cert.ReferenceIdeal.Read Cert.Propagation
open Idealize.ShloMosaic Idealize.ShloMosaic.ValueIdx

/-- The left operand's index at output index `i` and contraction position `k`: row of `i`, column `k`. -/
theorem left_index (i : S4096x256.Idx) (k : Fin 4096) : lidx_main_v0 i k = ix2 (i 0) k :=
  funext fun a => Fin.ext (by match a with | ⟨0, _⟩ => rfl | ⟨1, _⟩ => rfl)

/-- The right operand's index: row `k`, column of `i`. -/
theorem right_index (i : S4096x256.Idx) (k : Fin 4096) : ridx_main_v0 i k = ix2 k (i 1) :=
  funext fun a => Fin.ext (by match a with | ⟨0, _⟩ => rfl | ⟨1, _⟩ => rfl)

/-- The reference's result, as a function of its three arguments, is the propagation step. -/
theorem result_eq_step (x : (⟨S4096x256, .f32⟩ : BufTy).Contents (Elt Ideal)) (adj : (⟨S4096x4096, .f32⟩ : BufTy).Contents (Elt Ideal))
    (h : (⟨S4096x256, .f32⟩ : BufTy).Contents (Elt Ideal)) :
    val_main_v5 (F := Ideal) x adj h = step x adj h := by
  funext i
  rw [val_main_v5_apply, val_main_v2_apply, val_main_v4_apply, val_main_v1_apply, val_main_v3_apply,
    val_main_cst_apply, val_main_cst_0_apply, val_main_v0_apply]
  simp only [left_index, right_index, Ideal.mulf_def, Ideal.addf_def, Ideal.ofBits_def]
  rw [eq_ix2 i]
  rfl

end Cert.ReferenceIdeal.StepValue

end
-- ==== Proof.KernelPoint.lean ====
/-
  What the kernel's body computes at one grid point.

  The body loads its whole 512 × 4096 block of `adj`, the whole of `x`, and 512 consecutive rows of its 2048-row block
  of `h`, starting at the row offset it computes from the grid coordinate; it stores ONE value over the whole 512 × 256
  output block: the first weight times the matrix product of the two loaded blocks (accumulated into zero), plus the
  second weight times the loaded rows of `h`. So the output block is that value of the three loaded blocks
  (`block_value`), and at the ideal values its entry (p, q) is
      w₁ · Σₖ a(p, k) · b(k, q) + w₂ · r(p, q)
  (`payload_apply`): the product into a zero accumulator is the plain sum over the contraction axis.
-/
import proofs.«123390_g1228360646954_cont_fleet_178_24_alg».proof.Proof.Gen.KernelIdeal.Value
import proofs.«123390_g1228360646954_cont_fleet_178_24_alg».proof.Proof.Propagation
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem

namespace Cert.KernelIdeal.Point

open Cert.KernelIdeal Cert.KernelIdeal.Gen Cert.Propagation
open Idealize.ShloMosaic.ValueIdx

variable {F : FTy → Type} [FloatOps F]

theorem zero_offsets : (![0, 0] : Fin 2 → Nat) = fun _ => 0 := funext fun a => by fin_cases a <;> rfl

/-- The rows of the `h` block the body loads at grid coordinates `i`: 512 rows from the offset it computes. -/
abbrev keptRows (i : grid0.Coords) : Rect S2048x256 :=
  Rect.unit (s := S2048x256) (k0_off1 i) S512x256.size (k0_off1_inb i)

/-- The output block after the body: its one store covers the block, so the block holds the stored value, a function of
    the two whole input blocks and of the loaded rows of the third. -/
theorem block_value (c : Dev nD) (i : grid0.Coords) (a1 : Memref sig .tc .vmem S512x4096 .f32) (h1 : a1.IsWhole)
    (a2 : Memref sig .tc .vmem S4096x256 .f32) (h2 : a2.IsWhole) (a3 : Memref sig .tc .vmem S2048x256 .f32) (h3 : a3.IsWhole)
    (a4 : Memref sig .tc .vmem S512x256 .f32) (h4 : a4.IsWhole)
    (x0 : Vec F S512x4096 .f32) (x1 : Vec F S4096x256 .f32) (x2 : Vec F S2048x256 .f32) :
    out0_A_3 c i a1 h1 a2 h2 a3 h3 a4 h4 x0 x1 x2 = k0_pay1 x0 x1 (View.ld x2 (keptRows i)) := by
  unfold out0_A_3
  rw [View.read_writes_eq_canon _ _ _ (cover0_A_3 c i a1 h1 a2 h2 a3 h3 a4 h4 x0 x1 x2)]
  unfold kernelRun0_A
  dsimp only
  sl_unfold_words
  rw [View.canon_unit_zero zero_offsets]
  simp only [View.readAt_eq_ld, h1.read_unread, h2.read_unread, h3.read_unread,
    View.ld_unit_zero (S := S512x4096) zero_offsets, View.ld_unit_zero (S := S4096x256) zero_offsets]
  rfl

/-! ## The product's operand indices -/

theorem lhs_axis0 (j : S512x256.Idx) (s : dot_S512x4096_S4096x256_S512x256_1_0_0_1_n_n.contr.Idx) :
    (dot_S512x4096_S4096x256_S512x256_1_0_0_1_n_n.lhsIdx j s 0).val = (j 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs_axis1 (j : S512x256.Idx) (s : dot_S512x4096_S4096x256_S512x256_1_0_0_1_n_n.contr.Idx) :
    (dot_S512x4096_S4096x256_S512x256_1_0_0_1_n_n.lhsIdx j s 1).val = (s ⟨0, by decide⟩).val :=
  dot_S512x4096_S4096x256_S512x256_1_0_0_1_n_n.lhsIdx_val_of_single rfl j s
theorem rhs_axis0 (j : S512x256.Idx) (s : dot_S512x4096_S4096x256_S512x256_1_0_0_1_n_n.contr.Idx) :
    (dot_S512x4096_S4096x256_S512x256_1_0_0_1_n_n.rhsIdx j s 0).val = (s ⟨0, by decide⟩).val :=
  dot_S512x4096_S4096x256_S512x256_1_0_0_1_n_n.rhsIdx_val_of_single rfl j s
theorem rhs_axis1 (j : S512x256.Idx) (s : dot_S512x4096_S4096x256_S512x256_1_0_0_1_n_n.contr.Idx) :
    (dot_S512x4096_S4096x256_S512x256_1_0_0_1_n_n.rhsIdx j s 1).val = (j 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- The block product into a zero accumulator, at entry (p, q): the sum over the contraction axis of row `p` of the left
    block against column `q` of the right. -/
theorem product_apply (a : FVec Ideal S512x4096 .f32) (b : FVec Ideal S4096x256 .f32) (p : Fin 512) (q : Fin 256) :
    matmul (F := Ideal) dot_S512x4096_S4096x256_S512x256_1_0_0_1_n_n none a b (constant S512x256 .f32 0x00000000#32) (ix2 p q)
      = ∑ k : Fin 4096, a (ix2 p k) * b (ix2 k q) := by
  simp only [matmul]
  rw [Ideal.matmul_constant_zero_apply, ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 p q) ((contrEquiv1 dot_S512x4096_S4096x256_S512x256_1_0_0_1_n_n 4096 rfl rfl).symm k) = ix2 p k := funext fun ax => Fin.ext (by
    match ax with
    | ⟨0, _⟩ => exact lhs_axis0 _ _
    | ⟨1, _⟩ => exact (lhs_axis1 _ _).trans hk)
  have er : dot_S512x4096_S4096x256_S512x256_1_0_0_1_n_n.rhsIdx (ix2 p q) ((contrEquiv1 dot_S512x4096_S4096x256_S512x256_1_0_0_1_n_n 4096 rfl rfl).symm k) = ix2 k q := funext fun ax => Fin.ext (by
    match ax with
    | ⟨0, _⟩ => exact (rhs_axis0 _ _).trans hk
    | ⟨1, _⟩ => exact rhs_axis1 _ _)
  rw [el, er]

/-- The stored value at entry (p, q), at the ideal values. -/
theorem payload_apply (a : FVec Ideal S512x4096 .f32) (b : FVec Ideal S4096x256 .f32) (r : FVec Ideal S512x256 .f32)
    (p : Fin 512) (q : Fin 256) :
    k0_pay1 (F := Ideal) a b r (ix2 p q) = wProd * (∑ k : Fin 4096, a (ix2 p k) * b (ix2 k q)) + wKeep * r (ix2 p q) := by
  unfold k0_pay1
  show FloatOps.addf (FloatOps.mulf (FloatOps.ofBits (F := Ideal) .f32 0x3F666666#32) (matmul (F := Ideal) dot_S512x4096_S4096x256_S512x256_1_0_0_1_n_n none a b (constant S512x256 .f32 0x00000000#32) (ix2 p q)))
      (FloatOps.mulf (FloatOps.ofBits (F := Ideal) .f32 0x3DCCCCCD#32) (r (ix2 p q))) = _
  rw [product_apply]
  rfl

end Cert.KernelIdeal.Point

end
-- ==== Proof.KernelArray.lean ====
/-
  From the grid's points to the whole result array.

  The grid has eight points. Point `t` stages rows 512·t … 512·t + 511 of `adj`, the whole of `x`, and the 2048-row
  half ⌊t/4⌋ of `h`; inside that half the body loads the 512 rows starting at row 512·(t mod 4). Since
  2048·⌊t/4⌋ + 512·(t mod 4) = 512·t, those are rows 512·t … 512·t + 511 of `h`: the same rows as the output block's.
  So entry (p, q) of the block point `t` writes back is the propagation step at row 512·t + p and column q
  (`point_entry`), every point writes its block back, and the eight blocks tile the 4096 rows: the result array ends
  holding the step of the three argument arrays (`result_array`, `run`).
-/
import proofs.«123390_g1228360646954_cont_fleet_178_24_alg».proof.Proof.KernelPoint

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Point Cert.Propagation
open Idealize.ShloMosaic.ValueIdx

variable (m : (ℓ : Loc nD τ sig) → Buf (Elt Ideal) ℓ) (ρ : Dev nD → PrngReg)

/-- The block indices of the four windows and the row offset the body computes, at each of the eight points. -/
theorem grid_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val / 4 ∧ win0_2.index t (1 : Fin 2) = 0
    ∧ win0_3.index t (0 : Fin 2) = t.val ∧ win0_3.index t (1 : Fin 2) = 0
    ∧ k0_off1 (grid0.coords t) (0 : Fin 2) = (t.val % 4) * 512 ∧ k0_off1 (grid0.coords t) (1 : Fin 2) = 0 :=
  (by decide +kernel : ∀ t : Fin grid0.N, _)

theorem point_lt (t : Fin cfg0.N) : t.val < 8 := Nat.lt_of_lt_of_eq t.isLt (show cfg0.N = 8 from N_0)

/-! ## The staged blocks and the argument arrays, at their literal types -/

abbrev adjBlock (c : Dev nD) (t : Fin cfg0.N) : FVec Ideal S512x4096 .f32 := iblk m c 0 t
abbrev xBlock (c : Dev nD) (t : Fin cfg0.N) : FVec Ideal S4096x256 .f32 := iblk m c 1 t
abbrev hBlock (c : Dev nD) (t : Fin cfg0.N) : FVec Ideal S2048x256 .f32 := iblk m c 2 t
abbrev xArr (c : Dev nD) : FVec Ideal S4096x256 .f32 := m ((c : Thread nD τ).loc main_arg0)
abbrev adjArr (c : Dev nD) : FVec Ideal S4096x4096 .f32 := m ((c : Thread nD τ).loc main_arg1)
abbrev hArr (c : Dev nD) : FVec Ideal S4096x256 .f32 := m ((c : Thread nD τ).loc main_arg2)

/-- The block of `adj` at point `t` is its rows 512·t … 512·t + 511. -/
theorem adjBlock_apply (c : Dev nD) (t : Fin cfg0.N) (y : S512x4096.Idx) (g : S4096x4096.Idx)
    (h0 : (g 0).val = 512 * t.val + (y 0).val) (h1 : (g 1).val = (y 1).val) :
    adjBlock m c t y = adjArr m c g := by
  obtain ⟨e0, e1, -⟩ := grid_facts t
  unfold adjBlock adjArr iblk
  rw [View.read_apply]
  show V m c main_arg1 _ = m (c.tc.loc main_arg1) _
  unfold V
  congr 1
  funext a
  apply Fin.ext
  match a with
  | ⟨0, _⟩ => show win0_0.index t 0 * 512 + 1 * (y 0).val = (g 0).val; rw [e0, h0]; omega
  | ⟨1, _⟩ => show win0_0.index t 1 * 4096 + 1 * (y 1).val = (g 1).val; rw [e1, h1]; omega

/-- The block of `x` at every point is the whole array. -/
theorem xBlock_apply (c : Dev nD) (t : Fin cfg0.N) (y : S4096x256.Idx) (g : S4096x256.Idx)
    (h0 : (g 0).val = (y 0).val) (h1 : (g 1).val = (y 1).val) :
    xBlock m c t y = xArr m c g := by
  obtain ⟨-, -, e0, e1, -⟩ := grid_facts t
  unfold xBlock xArr iblk
  rw [View.read_apply]
  show V m c main_arg0 _ = m (c.tc.loc main_arg0) _
  unfold V
  congr 1
  funext a
  apply Fin.ext
  match a with
  | ⟨0, _⟩ => show win0_1.index t 0 * 4096 + 1 * (y 0).val = (g 0).val; rw [e0, h0]; omega
  | ⟨1, _⟩ => show win0_1.index t 1 * 256 + 1 * (y 1).val = (g 1).val; rw [e1, h1]; omega

/-- The block of `h` at point `t` is its rows 2048·⌊t/4⌋ … 2048·⌊t/4⌋ + 2047. -/
theorem hBlock_apply (c : Dev nD) (t : Fin cfg0.N) (y : S2048x256.Idx) (g : S4096x256.Idx)
    (h0 : (g 0).val = 2048 * (t.val / 4) + (y 0).val) (h1 : (g 1).val = (y 1).val) :
    hBlock m c t y = hArr m c g := by
  obtain ⟨-, -, -, -, e0, e1, -⟩ := grid_facts t
  unfold hBlock hArr iblk
  rw [View.read_apply]
  show V m c main_arg2 _ = m (c.tc.loc main_arg2) _
  unfold V
  congr 1
  funext a
  apply Fin.ext
  match a with
  | ⟨0, _⟩ => show win0_2.index t 0 * 2048 + 1 * (y 0).val = (g 0).val; rw [e0, h0]; omega
  | ⟨1, _⟩ => show win0_2.index t 1 * 256 + 1 * (y 1).val = (g 1).val; rw [e1, h1]; omega

/-! ## One point's block is a block of the step -/

/-- The result array the run ends with: the propagation step of the three argument arrays. -/
abbrev result (c : Dev nD) : Buf (Elt Ideal) ((c : Thread nD τ).loc main_v0) :=
  step (xArr m c) (adjArr m c) (hArr m c)

/-- Entry `y` of the value point `t` stores is the step at row 512·t + (row of `y`), column of `y`. -/
theorem point_entry (c : Dev nD) (t : Fin cfg0.N) (y : S512x256.Idx) (g : S4096x256.Idx)
    (hg0 : (g 0).val = 512 * t.val + (y 0).val) (hg1 : (g 1).val = (y 1).val) :
    k0_pay1 (F := Ideal) (adjBlock m c t) (xBlock m c t) (View.ld (hBlock m c t) (keptRows (grid0.coords t))) y
      = step (xArr m c) (adjArr m c) (hArr m c) g := by
  obtain ⟨-, -, -, -, -, -, -, -, eo0, eo1⟩ := grid_facts t
  have ht := point_lt t
  obtain ⟨p, q, rfl⟩ : ∃ (p : Fin 512) (q : Fin 256), y = ix2 p q := ⟨y 0, y 1, eq_ix2 y⟩
  have hp : p.val < 512 := p.isLt
  refine (payload_apply _ _ _ p q).trans ?_
  rw [step_apply _ _ _ g ⟨512 * t.val + p.val, by omega⟩ q hg0 hg1]
  unfold stepAt
  congr 1
  · congr 1
    refine Finset.sum_congr rfl fun k _ => ?_
    rw [adjBlock_apply m c t (ix2 p k) (ix2 ⟨512 * t.val + p.val, by omega⟩ k) rfl rfl,
      xBlock_apply m c t (ix2 k q) (ix2 k q) rfl rfl]
  · congr 1
    show hBlock m c t ((keptRows (grid0.coords t)).idx (ix2 p q)) = _
    refine hBlock_apply m c t _ _ ?_ ?_
    · show 512 * t.val + p.val = 2048 * (t.val / 4) + (k0_off1 (grid0.coords t) 0 + 1 * p.val)
      rw [eo0]; omega
    · show q.val = k0_off1 (grid0.coords t) 1 + 1 * q.val
      rw [eo1]; omega

/-- What point `t` writes back is block `t` of the step of the argument arrays. -/
theorem flushed_eq (c : Dev nD) (t : Fin cfg0.N) :
    (dats m 0 c).flushed 3 t = ((cfg0.win 3).blk t).view.read (Elt Ideal) (result m c) := by
  obtain ⟨-, -, -, -, -, -, e0, e1, -⟩ := grid_facts t
  rw [flushed3_A, block_value]
  funext j
  refine point_entry m c t j (((cfg0.win 3).blk t).view.emb j) ?_ ?_
  · show win0_3.index t 0 * 512 + 1 * (j 0).val = 512 * t.val + (j 0).val
    rw [e0]; omega
  · show win0_3.index t 1 * 256 + 1 * (j 1).val = (j 1).val
    rw [e1]; omega

/-! ## The eight blocks tile the array -/

/-- An index is in point `t`'s output block iff each coordinate is in the block's range. -/
theorem mem_block (t : Fin cfg0.N) (i : S4096x256.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v0).slice (win0_3.rect t)).set ↔ _
  rw [View.set_slice_whole, Rect.mem_set_unit]
  exact Iff.rfl

/-- Row `r` of the result lies in the block of point ⌊r/512⌋. -/
theorem covered (i : S4096x256.Idx) :
    ∃ t : Fin cfg0.N, (cfg0.win 3).flush t = true ∧ i ∈ ((cfg0.win 3).blk t).view.set := by
  have hi0 : (i 0).val < 4096 := (i 0).isLt
  have hi1 : (i 1).val < 256 := (i 1).isLt
  have hN : cfg0.N = 8 := N_0
  let t : Fin cfg0.N := ⟨(i 0).val / 512, by rw [hN]; omega⟩
  have htv : t.val = (i 0).val / 512 := rfl
  obtain ⟨-, -, -, -, -, -, e0, e1, -⟩ := grid_facts t
  refine ⟨t, flush0_3 t, ?_⟩
  rw [mem_block]
  intro a
  match a with
  | ⟨0, _⟩ => show win0_3.index t 0 * 512 ≤ (i 0).val ∧ (i 0).val < win0_3.index t 0 * 512 + 512; rw [e0, htv]; omega
  | ⟨1, _⟩ => show win0_3.index t 1 * 256 ≤ (i 1).val ∧ (i 1).val < win0_3.index t 1 * 256 + 256; rw [e1]; omega

/-- The result array after the run is the propagation step of the argument arrays. -/
theorem result_array (c : Dev nD) : (dats m 0 c).arrAt 3 cfg0.N = result m c :=
  (dats m 0 c).arrAt_eq_of_cover 3 (result m c) (fun t _ => flushed_eq m c t) covered

/-- The kernel's run: the result array at the step, the three arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result_array m c), (h c).2⟩) (run_blocks m ρ)

end Cert.KernelIdeal.Whole

end
-- ==== Proof.lean ====
/-
  The kernel computes one propagation step,  out = w₁ · (adj · x) + w₂ · h,  for a dense 4096 × 4096 matrix `adj` and
  4096 × 256 features `x`, `h`, with w₁ and w₂ the binary32 numbers nearest 9/10 and 1/10. It walks eight row panels of
  512 rows; at each it multiplies the panel of `adj` by the whole of `x`, scales the product, and adds the scaled rows
  of `h` that belong to the panel, which it finds inside a 2048-row half of `h` at the row offset 512 · (panel mod 4).
  The reference is the same expression over the whole arrays: one matrix product, two scalings, one sum.

  At the ideal values both are, entry by entry,  w₁ · Σₖ adj(p, k) · x(k, q) + w₂ · h(p, q):  the same two weight words
  on both sides, the product into a zero accumulator the plain sum over the contraction axis, and the panel's rows of
  `h` the rows 2048 · ⌊t/4⌋ + 512 · (t mod 4) = 512 · t onward. No law beyond reading each side at an index is used, so
  the finiteness of the inputs is never opened. The idealized kernel is the kernel's own text read at the ideal values:
  nothing was rewritten, and `preserves` has nothing to state.
-/
import proofs.«123390_g1228360646954_cont_fleet_178_24_alg».proof.Defs
import proofs.«123390_g1228360646954_cont_fleet_178_24_alg».proof.Proof.Gen.Kernel
import proofs.«123390_g1228360646954_cont_fleet_178_24_alg».proof.Proof.Gen.Kernel.Skeleton
import proofs.«123390_g1228360646954_cont_fleet_178_24_alg».proof.Proof.Gen.Kernel.Launch
import proofs.«123390_g1228360646954_cont_fleet_178_24_alg».proof.Proof.Gen.Kernel.Points
import proofs.«123390_g1228360646954_cont_fleet_178_24_alg».proof.Proof.Gen.Kernel.Frame
import proofs.«123390_g1228360646954_cont_fleet_178_24_alg».proof.Proof.Gen.KernelIdeal
import proofs.«123390_g1228360646954_cont_fleet_178_24_alg».proof.Proof.Gen.KernelIdeal.Skeleton
import proofs.«123390_g1228360646954_cont_fleet_178_24_alg».proof.Proof.Gen.KernelIdeal.Launch
import proofs.«123390_g1228360646954_cont_fleet_178_24_alg».proof.Proof.Gen.KernelIdeal.Points
import proofs.«123390_g1228360646954_cont_fleet_178_24_alg».proof.Proof.Gen.KernelIdeal.Frame
import proofs.«123390_g1228360646954_cont_fleet_178_24_alg».proof.Proof.Gen.ReferenceIdeal
import proofs.«123390_g1228360646954_cont_fleet_178_24_alg».proof.Proof.Gen.Pre_finite_inputs
import proofs.«123390_g1228360646954_cont_fleet_178_24_alg».proof.Proof.Gen.KernelIdeal.Value
import proofs.«123390_g1228360646954_cont_fleet_178_24_alg».proof.Proof.Gen.ReferenceIdeal.Run
import proofs.«123390_g1228360646954_cont_fleet_178_24_alg».proof.Proof.Gen.ReferenceIdeal.Read
import proofs.«123390_g1228360646954_cont_fleet_178_24_alg».proof.Proof.ReferenceValue
import proofs.«123390_g1228360646954_cont_fleet_178_24_alg».proof.Proof.KernelArray
import Idealize.ShloMosaic.Adequacy
import Idealize.ShloMosaic.Init

noncomputable section

namespace Cert.Proof

open Idealize.ShloMosaic Idealize.SL.Sem Cert.Kernel

/-- The kernel as printed runs to the end and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference runs to the end with its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x`, `adj` and `h`, the kernel's result array and the reference's both end at the
    propagation step of those three arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.StepValue.result_eq_step,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
